-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000 : Shape := ⟨1, ![10000]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000 : S_.BroadcastsInDim S10000 (![] : Fin 0 → Fin S10000.rank)
  reducesTo_S10000_S_d0 : S10000.ReducesTo [0] S_

variable [Facts]

def fn {F : FTy → Type} [FloatOps F] (main_arg0 : FVec F S10000x10000 .f32) (main_arg1 : FVec F S10000 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000 .f32 := Host.absf main_arg1
  let main_cst_0 : FVec F S_ .f32 := constant S_ .f32 0x7F800000#32
  let main_v5 : FVec F S10000 .f32 := broadcastInDim S10000 ![] bcast_S_S10000 main_cst_0
  let main_v6 : IVec S10000 1 := cmpf .olt main_v4 main_v5
  let main_c_1 : IVec S_ 1 := constantI S_ 1 1#1
  let main_v7 : IVec S_ 1 := (fun x v => Host.reduce IntOp.andi x v reducesTo_S10000_S_d0 h_S_) main_v6 main_c_1
  let main_v8 : IVec S_ 1 := andi main_v3 main_v7
  main_v8
-- ==== Kernel.lean ====
abbrev S10000x10000 : Shape := ⟨2, ![10000, 10000]⟩
abbrev S10000 : Shape := ⟨1, ![10000]⟩
abbrev S10000x1 : Shape := ⟨2, ![10000, 1]⟩
abbrev S1x10000 : Shape := ⟨2, ![1, 10000]⟩
abbrev S1024x1024 : Shape := ⟨2, ![1024, 1024]⟩
abbrev S1024x1 : Shape := ⟨2, ![1024, 1]⟩
abbrev S1x1024 : Shape := ⟨2, ![1, 1024]⟩

abbrev nBuf : Space → Nat
  | .hbm => 5
  | .vmem => 8
  | .smem => 0
  | _ => 0

abbrev bufTy : (tb : Table) → Fin (tcTables nBuf tb) → BufTy
  | .hbm, ⟨0, _⟩ => ⟨S10000x10000, .f32⟩
  | .hbm, ⟨1, _⟩ => ⟨S10000, .f32⟩
  | .hbm, ⟨2, _⟩ => ⟨S10000x1, .f32⟩
  | .hbm, ⟨3, _⟩ => ⟨S1x10000, .f32⟩
  | .hbm, ⟨4, _⟩ => ⟨S10000x10000, .f32⟩
  | .local _ .vmem, ⟨0, _⟩ => ⟨S1024x1024, .f32⟩
  | .local _ .vmem, ⟨1, _⟩ => ⟨S1024x1024, .f32⟩
  | .local _ .vmem, ⟨2, _⟩ => ⟨S1024x1, .f32⟩
  | .local _ .vmem, ⟨3, _⟩ => ⟨S1024x1, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![10, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S10000_S10000x1 : S10000.ShapeCasts S10000x1
  shapeCasts_S10000_S1x10000 : S10000.ShapeCasts S1x10000
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  broadcasts_S1024x1_S1024x1024 : S1024x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1024x1024.size a < S10000x10000.size a
  hwx0_0 : ∀ i : grid0.Coords, EltTy.bits .f32 = 32 ∨ (Rect.unit (s := S10000x10000) (fun a => cc0_transform_0 i a * S1024x1024.size a) (fun a => (Pipeline.Clip.of (cc0_transform_0 i a) (S1024x1024.size a) (S10000x10000.size a)).extent (S1024x1024.size a)) fun a => Pipeline.Clip.inb (Pipeline.Clip.ok_of (hstart0_0 i a))).WholeWords (EltTy.packing .f32)
  hwxs0_0 : ∀ i : grid0.Coords, EltTy.bits .f32 = 32 ∨ (Rect.unit (s := S1024x1024) (fun _ => 0) (fun a => (Pipeline.Clip.of (cc0_transform_0 i a) (S1024x1024.size a) (S10000x10000.size a)).extent (S1024x1024.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1024x1.size a < S10000x1.size a
  hwx0_1 : ∀ i : grid0.Coords, EltTy.bits .f32 = 32 ∨ (Rect.unit (s := S10000x1) (fun a => cc0_transform_1 i a * S1024x1.size a) (fun a => (Pipeline.Clip.of (cc0_transform_1 i a) (S1024x1.size a) (S10000x1.size a)).extent (S1024x1.size a)) fun a => Pipeline.Clip.inb (Pipeline.Clip.ok_of (hstart0_1 i a))).WholeWords (EltTy.packing .f32)
  hwxs0_1 : ∀ i : grid0.Coords, EltTy.bits .f32 = 32 ∨ (Rect.unit (s := S1024x1) (fun _ => 0) (fun a => (Pipeline.Clip.of (cc0_transform_1 i a) (S1024x1.size a) (S10000x1.size a)).extent (S1024x1.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x1024.size a < S1x10000.size a
  hwx0_2 : ∀ i : grid0.Coords, EltTy.bits .f32 = 32 ∨ (Rect.unit (s := S1x10000) (fun a => cc0_transform_2 i a * S1x1024.size a) (fun a => (Pipeline.Clip.of (cc0_transform_2 i a) (S1x1024.size a) (S1x10000.size a)).extent (S1x1024.size a)) fun a => Pipeline.Clip.inb (Pipeline.Clip.ok_of (hstart0_2 i a))).WholeWords (EltTy.packing .f32)
  hwxs0_2 : ∀ i : grid0.Coords, EltTy.bits .f32 = 32 ∨ (Rect.unit (s := S1x1024) (fun _ => 0) (fun a => (Pipeline.Clip.of (cc0_transform_2 i a) (S1x1024.size a) (S1x10000.size a)).extent (S1x1024.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1024x1024.size a < S10000x10000.size a
  hwx0_3 : ∀ i : grid0.Coords, EltTy.bits .f32 = 32 ∨ (Rect.unit (s := S10000x10000) (fun a => cc0_transform_3 i a * S1024x1024.size a) (fun a => (Pipeline.Clip.of (cc0_transform_3 i a) (S1024x1024.size a) (S10000x10000.size a)).extent (S1024x1024.size a)) fun a => Pipeline.Clip.inb (Pipeline.Clip.ok_of (hstart0_3 i a))).WholeWords (EltTy.packing .f32)
  hwxs0_3 : ∀ i : grid0.Coords, EltTy.bits .f32 = 32 ∨ (Rect.unit (s := S1024x1024) (fun _ => 0) (fun a => (Pipeline.Clip.of (cc0_transform_3 i a) (S1024x1024.size a) (S10000x10000.size a)).extent (S1024x1024.size a)) fun a => (Nat.zero_add _).trans_le (Pipeline.Clip.extent_le (Pipeline.Clip.ok_of (hstart0_3 i a)))).WholeWords (EltTy.packing .f32)

variable [Facts₀]

abbrev win0_0 : Pipeline.Window sig grid0 :=
  Pipeline.Window.ofSpecClip (Memref.whole main_arg0) S1024x1024.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v0) S1024x1.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v1) S1x1024.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v2) S1024x1024.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x10000 : Shape := ⟨2, ![10000, 10000]⟩
abbrev S10000 : Shape := ⟨1, ![10000]⟩
abbrev S10000x1 : Shape := ⟨2, ![10000, 1]⟩
abbrev S1x10000 : Shape := ⟨2, ![1, 10000]⟩

abbrev nBuf : Space → Nat
  | .hbm => 8
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000, .f32⟩
  | .hbm, ⟨2, _⟩ => ⟨S10000x1, .f32⟩
  | .hbm, ⟨3, _⟩ => ⟨S10000x10000, .f32⟩
  | .hbm, ⟨4, _⟩ => ⟨S10000x10000, .f32⟩
  | .hbm, ⟨5, _⟩ => ⟨S1x10000, .f32⟩
  | .hbm, ⟨6, _⟩ => ⟨S10000x10000, .f32⟩
  | .hbm, ⟨7, _⟩ => ⟨S10000x10000, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]

class Facts₀ : Prop where
  bcast_S10000_S10000x1_0 : S10000.BroadcastsInDim S10000x1 (![0] : Fin 1 → Fin S10000x1.rank)
  bcast_S10000x1_S10000x10000_0_1 : S10000x1.BroadcastsInDim S10000x10000 (![0, 1] : Fin 2 → Fin S10000x10000.rank)
  bcast_S10000_S1x10000_1 : S10000.BroadcastsInDim S1x10000 (![1] : Fin 1 → Fin S1x10000.rank)
  bcast_S1x10000_S10000x10000_0_1 : S1x10000.BroadcastsInDim S10000x10000 (![0, 1] : Fin 2 → Fin S10000x10000.rank)

variable [Facts₀]

class Facts : Prop extends Facts₀ where

variable [Facts]
-- ==== Proof.LibScaleTile.lean ====
/-
  A tile scaled by a column on the left and a row on the right, read at one entry.

  For a tile `a` of shape [r, l], a column `ci` of shape [r, 1] and a row `rj` of shape [1, l], the vector
  expression  (broadcast ci) * a * (broadcast rj)  — the column broadcast along the lanes, the row along the
  sublanes, the two products taken left to right — has at entry (p, q) the value  (ci[p,0] * a[p,q]) * rj[0,q].
  Every operation involved is pointwise or a re-indexing, so this holds at every float instance: nothing about
  the arithmetic of the products is used. A consequence used for tiles that are only partly meaningful: the
  entry (p, q) depends on the operands only through ci[p,0], a[p,q] and rj[0,q].
  Also the keepdims column forms the library's layout lemmas leave out: a column [r, 1] broadcast along the lanes, and
  a vector [a] cast to a column [a, 1].
-/
import Idealize.ShloMosaic.Lib.Pipeline.Value
import Idealize.ShloMosaic.Lib.ValueLayout

noncomputable section

namespace Cert.ScaleTile

open Idealize.ShloMosaic Idealize.ShloMosaic.ValueIdx

variable {α : Type}

/-- A column [r, 1] broadcast along the lanes to [r, l] reads, at (p, q), the column's entry p. -/
theorem colBroadcast_apply {r l : ℕ} (v : (⟨2, ![r, 1]⟩ : Shape).Idx → α) (h : (⟨2, ![r, 1]⟩ : Shape).Broadcasts ⟨2, ![r, l]⟩)
    (p : Fin r) (q : Fin l) : broadcastTo ⟨2, ![r, l]⟩ v h (ix2 p q) = v (ix2 p (0 : Fin 1)) := by
  refine broadcastTo_apply v h (ix2 p q) (ix2 p (0 : Fin 1)) fun ax => ?_
  match ax with
  | ⟨0, _⟩ =>
    show p.val = if r = 1 then 0 else p.val
    split
    · have := p.isLt; omega
    · rfl
  | ⟨1, _⟩ => rfl

/-- A vector [a] cast to a column [a, 1] reads, at (i, 0), the vector's entry i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

variable {F : FTy → Type} [FloatOps F]

/-- The scaled tile at entry (p, q): the column's entry p times the tile's entry (p, q), times the row's entry q. The two
    shape casts are casts of a shape to itself, as the kernel's lowering leaves them. -/
theorem scaled_apply {r l : ℕ} (ci : FVec F ⟨2, ![r, 1]⟩ .f32) (a : FVec F ⟨2, ![r, l]⟩ .f32) (rj : FVec F ⟨2, ![1, l]⟩ .f32)
    (hc : (⟨2, ![r, 1]⟩ : Shape).ShapeCasts ⟨2, ![r, 1]⟩) (hcb : (⟨2, ![r, 1]⟩ : Shape).Broadcasts ⟨2, ![r, l]⟩)
    (hr : (⟨2, ![1, l]⟩ : Shape).ShapeCasts ⟨2, ![1, l]⟩) (hrb : (⟨2, ![1, l]⟩ : Shape).Broadcasts ⟨2, ![r, l]⟩)
    (p : Fin r) (q : Fin l) :
    mulf (mulf (broadcastTo ⟨2, ![r, l]⟩ (shapeCast ⟨2, ![r, 1]⟩ ci hc) hcb) a)
        (broadcastTo ⟨2, ![r, l]⟩ (shapeCast ⟨2, ![1, l]⟩ rj hr) hrb) (ix2 p q)
      = FloatOps.mulf (FloatOps.mulf (ci (ix2 p (0 : Fin 1))) (a (ix2 p q))) (rj (ix2 (0 : Fin 1) q)) := by
  show FloatOps.mulf (FloatOps.mulf (broadcastTo ⟨2, ![r, l]⟩ (shapeCast ⟨2, ![r, 1]⟩ ci hc) hcb (ix2 p q)) (a (ix2 p q)))
      (broadcastTo ⟨2, ![r, l]⟩ (shapeCast ⟨2, ![1, l]⟩ rj hr) hrb (ix2 p q)) = _
  rw [colBroadcast_apply, broadcastTo_1b_ab_apply, shapeCast_self, shapeCast_self]

end Cert.ScaleTile

end
-- ==== Proof.KernelBody.lean ====
/-
  The frame of the tiled rescaling kernel: it runs to the end, faults nowhere and leaves its two arguments as they were.

  One pallas_call walks a 10 × 10 grid over a 10000 × 10000 matrix in 1024 × 1024 tiles. At point (tr, tc) it stages the
  matrix tile (tr, tc), rows 1024 tr … of the weights as a column [1024, 1] and columns 1024 tc … of the weights as a
  row [1, 1024], and stores (column * tile) * row into the result's tile (tr, tc), which is written back at every point.
  10000 is not a multiple of 1024: the last tile along each axis holds only 784 rows (columns) of the array, its
  transfers are cut there, and what the rest of a staging buffer holds nothing names. So each window's obligation is
  stated only on the part its transfers move. The argument is that an entry of the result's tile which the write-back
  moves reads only entries of the input buffers which their fetches moved: entry (p, q) reads the column at p, the
  tile at (p, q) and the row at q, and the windows are cut alike along the axes they share.

  The text is written for any float instance: nothing of the products' arithmetic is used.
-/
import proofs.«155546_j13280038880162_1_alg».proof.Proof.Gen.Kernel.Frame
import proofs.«155546_j13280038880162_1_alg».proof.Proof.Gen.Kernel.Skeleton
import proofs.«155546_j13280038880162_1_alg».proof.Proof.LibScaleTile
import Idealize.ShloMosaic.Lib.Pipeline.FrameBody
import Idealize.ShloMosaic.Lib.Tactic

set_option maxRecDepth 16384

noncomputable section

namespace Cert.Kernel.Edge

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body on whole staging buffers -/

/-- The whole-buffer rectangles the body loads and stores through: the tile's, the column's and the row's. -/
abbrev rT : Rect S1024x1024 := Rect.unit (s := S1024x1024) ![0, 0] S1024x1024.size inb_S1024x1024_S1024x1024_0_0
abbrev rC : Rect S1024x1 := Rect.unit (s := S1024x1) ![0, 0] S1024x1.size inb_S1024x1_S1024x1_0_0
abbrev rR : Rect S1x1024 := Rect.unit (s := S1x1024) ![0, 0] S1x1024.size inb_S1x1024_S1x1024_0_0

theorem zeros2 : (![0, 0] : Fin 2 → Nat) = fun _ => 0 := funext fun a => by fin_cases a <;> rfl

/-- What the body's one store leaves in the result's staging buffer, from the contents `a` of the matrix tile's
    buffer, `ci` of the column's and `rj` of the row's. -/
def tileOut (a : Vec F S1024x1024 .f32) (ci : Vec F S1024x1 .f32) (rj : Vec F S1x1024 .f32) : Vec F S1024x1024 .f32 :=
  View.canon [⟨rT, k0_pay1 (View.ld ci rC) (View.ld a rT) (View.ld rj rR)⟩]

/-- Entry (p, q) of it: the column's entry p times the tile's entry (p, q), times the row's entry q — so it depends on
    the three buffers only through those three entries. -/
theorem tileOut_apply (a : Vec F S1024x1024 .f32) (ci : Vec F S1024x1 .f32) (rj : Vec F S1x1024 .f32) (p q : Fin 1024) :
    tileOut a ci rj (ix2 p q)
      = FloatOps.mulf (FloatOps.mulf (ci (ix2 p (0 : Fin 1))) (a (ix2 p q))) (rj (ix2 (0 : Fin 1) q)) := by
  unfold tileOut
  rw [View.canon_unit_zero zeros2]
  simp only [View.ld_unit_zero (S := S1024x1024) zeros2, View.ld_unit_zero (S := S1024x1) zeros2,
    View.ld_unit_zero (S := S1x1024) zeros2]
  unfold k0_pay1
  exact Cert.ScaleTile.scaled_apply ci a rj _ _ _ _ p q

set_option maxHeartbeats 1000000 in
/-- The body on whole staging memrefs: the three inputs' buffers at contents `x0`, `x1`, `x2` and the result's at
    anything; it loads the four (the load of the result's buffer is dead), stores the scaled tile into the result's, and
    leaves the inputs' as they were. -/
theorem sound_kernel (c : Dev nD) (E : Set ℕ) (i : grid0.Coords)
    (arg2 : Memref sig .tc .vmem S1024x1024 .f32) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1024x1024 .f32) (harg5 : arg5.IsWhole)
    (x0 : Vec F S1024x1024 .f32) (x1 : Vec F S1024x1 .f32) (x2 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (tileOut x0 x1 x2)) -∗ K ⟨⟩))
      ⊢ wp frame (wpE (defs₀ (F := F)) Variants.none c none) E (cc0__scale_kernel i arg2 harg2 arg3 harg3 arg4 harg4 arg5 harg5) K := by
  simp only [cc0__scale_kernel_eq_skeleton]; unfold cc0__scale_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (fun y => ⟨_, List.mem_singleton_self _, View.mem_set_unit_zero zeros2 inb_S1024x1024_S1024x1024_0_0 y⟩)

/-! ## The proof data

The grid is 10 × 10 over a 10000 × 10000 array in 1024 × 1024 tiles, so the last tile along each axis holds only 784
rows (columns) of the array; the transfers move that part of a tile and nothing names the rest of a staging buffer.
Each window's obligation is therefore stated on the moved part only. -/

/-- Window `w`'s block at point `t` filled out to the whole staging buffer by an arbitrary word past the array's end. -/
def pad (c : Dev nD) (w : Fin cfg0.W) (t : Fin cfg0.N) : (cfg0.win w).block.Idx → Elt F (cfg0.win w).elt :=
  (cfg0.win w).fill (cfg0.grid.coords t) (fun _ => Classical.arbitrary _) (iblk m c w t)

theorem cut_pad (c : Dev nD) (w : Fin cfg0.W) (t : Fin cfg0.N) :
    (cfg0.win w).cut (cfg0.grid.coords t) (pad m c w t) = iblk m c w t := (cfg0.win w).cut_fill _ _ _

/-- The proof data of the one pipeline on core `c`: the arrays as the region finds them; after the body each input's
    staging buffer at its padded block and the result's at the scaled tile of the three padded blocks; the invariant
    the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => pad m c 0 t
    | ⟨1, _⟩ => pad m c 1 t
    | ⟨2, _⟩ => pad m c 2 t
    | ⟨3, _⟩ => tileOut (pad m c 0 t) (pad m c 1 t) (pad m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = pad m c 0 t := by dsimp only [dats]
theorem after_1 (c : Dev nD) (t : Fin cfg0.N) : (dats m 0 c).after 1 t = pad m c 1 t := by dsimp only [dats]
theorem after_2 (c : Dev nD) (t : Fin cfg0.N) : (dats m 0 c).after 2 t = pad m c 2 t := by dsimp only [dats]
theorem after_3 (c : Dev nD) (t : Fin cfg0.N) :
    (dats m 0 c).after 3 t = tileOut (pad m c 0 t) (pad m c 1 t) (pad m c 2 t) := by dsimp only [dats]

/-- Where a tile is cut depends on the point only through the tile's index. -/
theorem clip_of_index0 (t t' : Fin cfg0.N) (h : (cfg0.win 0).index t = (cfg0.win 0).index t') :
    (cfg0.win 0).clip (cfg0.grid.coords t) = (cfg0.win 0).clip (cfg0.grid.coords t') := by
  funext a
  show Pipeline.Clip.of ((cfg0.win 0).index t a) _ _ = Pipeline.Clip.of ((cfg0.win 0).index t' a) _ _
  rw [h]
theorem clip_of_index1 (t t' : Fin cfg0.N) (h : (cfg0.win 1).index t = (cfg0.win 1).index t') :
    (cfg0.win 1).clip (cfg0.grid.coords t) = (cfg0.win 1).clip (cfg0.grid.coords t') := by
  funext a
  show Pipeline.Clip.of ((cfg0.win 1).index t a) _ _ = Pipeline.Clip.of ((cfg0.win 1).index t' a) _ _
  rw [h]
theorem clip_of_index2 (t t' : Fin cfg0.N) (h : (cfg0.win 2).index t = (cfg0.win 2).index t') :
    (cfg0.win 2).clip (cfg0.grid.coords t) = (cfg0.win 2).clip (cfg0.grid.coords t') := by
  funext a
  show Pipeline.Clip.of ((cfg0.win 2).index t a) _ _ = Pipeline.Clip.of ((cfg0.win 2).index t' a) _ _
  rw [h]

/-- An input's staging buffer, fetched at this point or left from an earlier one with the same tile index, holds its
    block on the part the fetch fills and anything elsewhere. -/
theorem before_in (c : Dev nD) (w : Fin cfg0.W) (hw : (cfg0.win w).isOut = false)
    (hclip : ∀ t t' : Fin cfg0.N, (cfg0.win w).index t = (cfg0.win w).index t' →
      (cfg0.win w).clip (cfg0.grid.coords t) = (cfg0.win w).clip (cfg0.grid.coords t'))
    (hafter : ∀ t, (dats m 0 c).after w t = pad m c w t) (t : Fin cfg0.N) (d) :
    (dats m 0 c).before w t d = (cfg0.win w).fill (cfg0.grid.coords t) d (iblk m c w t) :=
  ((dats m 0 c).before_in_eq_fetched w hw (fun _ => rfl) hclip
    (fun t => by rw [hafter, cut_pad]; unfold Dat.blockOf iblk; rw [A_eq]) t d).trans
    (by unfold Dat.fetched Dat.blockOf iblk; rw [A_eq])

theorem before_0 (c : Dev nD) (t : Fin cfg0.N) (d) :
    (dats m 0 c).before 0 t d = (cfg0.win 0).fill (cfg0.grid.coords t) d (iblk m c 0 t) :=
  before_in m c 0 rfl clip_of_index0 (after_0 m c) t d
theorem before_1 (c : Dev nD) (t : Fin cfg0.N) (d) :
    (dats m 0 c).before 1 t d = (cfg0.win 1).fill (cfg0.grid.coords t) d (iblk m c 1 t) :=
  before_in m c 1 rfl clip_of_index1 (after_1 m c) t d
theorem before_2 (c : Dev nD) (t : Fin cfg0.N) (d) :
    (dats m 0 c).before 2 t d = (cfg0.win 2).fill (cfg0.grid.coords t) d (iblk m c 2 t) :=
  before_in m c 2 rfl clip_of_index2 (after_2 m c) t d

/-- The result's staging buffer is written back at every point, so the body finds it at contents nothing names. -/
theorem before_3 (c : Dev nD) (t : Fin cfg0.N) (d) : (dats m 0 c).before 3 t d = d :=
  (dats m 0 c).before_out_reset 3 rfl t (by
    by_cases h : t.val = 0
    · exact .inl h
    · exact .inr ⟨h, flush0_3 _⟩) d

/-! ## The scaled tile on the part the write-back moves

The result's tile is cut where the matrix tile is (the two windows have one index map and one tile shape); the column
is cut where the tile's rows are and the row where its columns are. So an entry of the result's tile that the write-back
moves reads entries of the three input buffers that their fetches moved. -/

/-- Under an index of the moved part of the result's tile: the matrix tile's index, -/
def tileIdx (i : grid0.Coords) (y : ((cfg0.win 3).xblock i).Idx) : ((cfg0.win 0).xblock i).Idx :=
  fun ax => ⟨(y ax).val, (y ax).isLt⟩
/-- the column's (its row, lane 0), -/
def colIdx (i : grid0.Coords) (y : ((cfg0.win 3).xblock i).Idx) : ((cfg0.win 1).xblock i).Idx := fun ax => match ax with
  | ⟨0, _⟩ => ⟨(y 0).val, (y 0).isLt⟩
  | ⟨1, _⟩ => ⟨0, Nat.one_pos⟩
/-- and the row's (sublane 0, its column). -/
def rowIdx (i : grid0.Coords) (y : ((cfg0.win 3).xblock i).Idx) : ((cfg0.win 2).xblock i).Idx := fun ax => match ax with
  | ⟨0, _⟩ => ⟨0, Nat.one_pos⟩
  | ⟨1, _⟩ => ⟨(y 1).val, (y 1).isLt⟩

theorem row_lt (i : grid0.Coords) (y : ((cfg0.win 3).xblock i).Idx) : (y 0).val < 1024 :=
  Nat.lt_of_lt_of_le (y 0).isLt ((cfg0.win 3).xsize_le i 0)
theorem col_lt (i : grid0.Coords) (y : ((cfg0.win 3).xblock i).Idx) : (y 1).val < 1024 :=
  Nat.lt_of_lt_of_le (y 1).isLt ((cfg0.win 3).xsize_le i 1)

theorem xinj3_eq (i : grid0.Coords) (y : ((cfg0.win 3).xblock i).Idx) :
    (cfg0.win 3).xinj i y = ix2 (⟨(y 0).val, row_lt i y⟩ : Fin 1024) (⟨(y 1).val, col_lt i y⟩ : Fin 1024) := by
  funext ax; match ax with | ⟨0, _⟩ => rfl | ⟨1, _⟩ => rfl
theorem xinj0_tileIdx (i : grid0.Coords) (y : ((cfg0.win 3).xblock i).Idx) :
    (cfg0.win 0).xinj i (tileIdx i y) = ix2 (⟨(y 0).val, row_lt i y⟩ : Fin 1024) (⟨(y 1).val, col_lt i y⟩ : Fin 1024) := by
  funext ax; match ax with | ⟨0, _⟩ => rfl | ⟨1, _⟩ => rfl
theorem xinj1_colIdx (i : grid0.Coords) (y : ((cfg0.win 3).xblock i).Idx) :
    (cfg0.win 1).xinj i (colIdx i y) = ix2 (⟨(y 0).val, row_lt i y⟩ : Fin 1024) (0 : Fin 1) := by
  funext ax; match ax with | ⟨0, _⟩ => rfl | ⟨1, _⟩ => rfl
theorem xinj2_rowIdx (i : grid0.Coords) (y : ((cfg0.win 3).xblock i).Idx) :
    (cfg0.win 2).xinj i (rowIdx i y) = ix2 (0 : Fin 1) (⟨(y 1).val, col_lt i y⟩ : Fin 1024) := by
  funext ax; match ax with | ⟨0, _⟩ => rfl | ⟨1, _⟩ => rfl

/-- The scaled tile at a moved entry, from the moved parts of the three inputs' buffers. -/
theorem cut_tileOut_apply (i : grid0.Coords) (a : Vec F S1024x1024 .f32) (ci : Vec F S1024x1 .f32) (rj : Vec F S1x1024 .f32)
    (y : ((cfg0.win 3).xblock i).Idx) :
    (cfg0.win 3).cut i (tileOut a ci rj) y
      = FloatOps.mulf (FloatOps.mulf ((cfg0.win 1).cut i ci (colIdx i y)) ((cfg0.win 0).cut i a (tileIdx i y)))
          ((cfg0.win 2).cut i rj (rowIdx i y)) := by
  show tileOut a ci rj ((cfg0.win 3).xinj i y)
    = FloatOps.mulf (FloatOps.mulf (ci ((cfg0.win 1).xinj i (colIdx i y))) (a ((cfg0.win 0).xinj i (tileIdx i y))))
        (rj ((cfg0.win 2).xinj i (rowIdx i y)))
  rw [xinj3_eq, xinj0_tileIdx, xinj1_colIdx, xinj2_rowIdx, tileOut_apply]

/-- Input buffers that agree on what their fetches moved give result tiles that agree on what the write-back moves. -/
theorem cut_tileOut_congr (i : grid0.Coords) {a a' : Vec F S1024x1024 .f32} {ci ci' : Vec F S1024x1 .f32} {rj rj' : Vec F S1x1024 .f32}
    (h0 : (cfg0.win 0).cut i a = (cfg0.win 0).cut i a') (h1 : (cfg0.win 1).cut i ci = (cfg0.win 1).cut i ci')
    (h2 : (cfg0.win 2).cut i rj = (cfg0.win 2).cut i rj') :
    (cfg0.win 3).cut i (tileOut a ci rj) = (cfg0.win 3).cut i (tileOut a' ci' rj') := by
  funext y
  rw [cut_tileOut_apply, cut_tileOut_apply, h0, h1, h2]

/-! ## The body obligation -/

/-- What the body is called with at point `t`: the invariant, what the core owes, and the four current staging buffers
    at what they then hold, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it hands back: each buffer at what the proof data names on the part the window's transfers move, and at
    anything elsewhere. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        ((cfg0.win 0).fill (cfg0.grid.coords t) d ((cfg0.win 0).cut (cfg0.grid.coords t) ((dats m 0 c).after 0 t))))
    ∗ (∃ d, owns (c : Thread nD τ) (st0_1 t) fullShare
        ((cfg0.win 1).fill (cfg0.grid.coords t) d ((cfg0.win 1).cut (cfg0.grid.coords t) ((dats m 0 c).after 1 t))))
    ∗ (∃ d, owns (c : Thread nD τ) (st0_2 t) fullShare
        ((cfg0.win 2).fill (cfg0.grid.coords t) d ((cfg0.win 2).cut (cfg0.grid.coords t) ((dats m 0 c).after 2 t))))
    ∗ (∃ d, owns (c : Thread nD τ) (st0_3 t) fullShare
        ((cfg0.win 3).fill (cfg0.grid.coords t) d ((cfg0.win 3).cut (cfg0.grid.coords t) ((dats m 0 c).after 3 t)))))

/-- An input's buffer left as found is, on the moved part, the padded block. -/
theorem leaves_in (c : Dev nD) (w : Fin cfg0.W) (t : Fin cfg0.N) (d : (cfg0.win w).block.Idx → Elt F (cfg0.win w).elt) :
    (cfg0.win w).fill (cfg0.grid.coords t) d ((cfg0.win w).cut (cfg0.grid.coords t) (pad m c w t))
      = (cfg0.win w).fill (cfg0.grid.coords t) d (iblk m c w t) :=
  congrArg ((cfg0.win w).fill (cfg0.grid.coords t) d) (cut_pad m c w t)

/-- The scaled tile of buffers holding the blocks and anything elsewhere is, on the part the write-back moves, the scaled
    tile of the padded blocks. -/
theorem leaves_out (c : Dev nD) (t : Fin cfg0.N) (d0 : Vec F S1024x1024 .f32) (d1 : Vec F S1024x1 .f32) (d2 : Vec F S1x1024 .f32) :
    (cfg0.win 3).fill (cfg0.grid.coords t)
        (tileOut ((cfg0.win 0).fill (cfg0.grid.coords t) d0 (iblk m c 0 t)) ((cfg0.win 1).fill (cfg0.grid.coords t) d1 (iblk m c 1 t))
          ((cfg0.win 2).fill (cfg0.grid.coords t) d2 (iblk m c 2 t)))
        ((cfg0.win 3).cut (cfg0.grid.coords t) (tileOut (pad m c 0 t) (pad m c 1 t) (pad m c 2 t)))
      = tileOut ((cfg0.win 0).fill (cfg0.grid.coords t) d0 (iblk m c 0 t)) ((cfg0.win 1).fill (cfg0.grid.coords t) d1 (iblk m c 1 t))
          ((cfg0.win 2).fill (cfg0.grid.coords t) d2 (iblk m c 2 t)) :=
  (cfg0.win 3).fill_congr_cut (cfg0.grid.coords t) (cut_tileOut_congr (cfg0.grid.coords t)
    (((cfg0.win 0).cut_fill _ _ _).trans (cut_pad m c 0 t).symm) (((cfg0.win 1).cut_fill _ _ _).trans (cut_pad m c 1 t).symm)
    (((cfg0.win 2).cut_fill _ _ _).trans (cut_pad m c 2 t).symm))

/-- The body at any point. The inputs' buffers hold their blocks where the fetches filled them and anything `d0`, `d1`,
    `d2` elsewhere; the body leaves them so, which on the moved parts is what the proof data names; and the scaled tile
    it stores agrees, on the part the write-back moves, with the scaled tile of the padded blocks, because a moved
    entry reads only moved entries of the inputs. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ (grid0.coords t) _ _ _ _ _ _ _ _
    ((cfg0.win 0).fill (cfg0.grid.coords t) d0 (iblk m c 0 t)) ((cfg0.win 1).fill (cfg0.grid.coords t) d1 (iblk m c 1 t))
    ((cfg0.win 2).fill (cfg0.grid.coords t) d2 (iblk m c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexists d0; rw [leaves_in m c 0 t d0]; iexact H0
  isplitl [H1]; · iexists d1; rw [leaves_in m c 1 t d1]; iexact H1
  isplitl [H2]; · iexists d2; rw [leaves_in m c 2 t d2]; iexact H2
  iexists tileOut ((cfg0.win 0).fill (cfg0.grid.coords t) d0 (iblk m c 0 t)) ((cfg0.win 1).fill (cfg0.grid.coords t) d1 (iblk m c 1 t))
    ((cfg0.win 2).fill (cfg0.grid.coords t) d2 (iblk m c 2 t))
  rw [leaves_out m c t d0 d1 d2]
  iexact H3

/-- The library's body obligation in its loose form (every window is one whose tiles a transfer may cut), at every point. -/
theorem body_obligation (c : Dev nD) : BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main
    terminates, every array of the pipeline ends at what the write-backs of the proof data's tiles leave and every
    other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame: the run ends, nothing faults, and the two argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Edge

end
-- ==== Proof.KernelIdealBody.lean ====
/-
  The frame of the tiled rescaling kernel: it runs to the end, faults nowhere and leaves its two arguments as they were.

  One pallas_call walks a 10 × 10 grid over a 10000 × 10000 matrix in 1024 × 1024 tiles. At point (tr, tc) it stages the
  matrix tile (tr, tc), rows 1024 tr … of the weights as a column [1024, 1] and columns 1024 tc … of the weights as a
  row [1, 1024], and stores (column * tile) * row into the result's tile (tr, tc), which is written back at every point.
  10000 is not a multiple of 1024: the last tile along each axis holds only 784 rows (columns) of the array, its
  transfers are cut there, and what the rest of a staging buffer holds nothing names. So each window's obligation is
  stated only on the part its transfers move. The argument is that an entry of the result's tile which the write-back
  moves reads only entries of the input buffers which their fetches moved: entry (p, q) reads the column at p, the
  tile at (p, q) and the row at q, and the windows are cut alike along the axes they share.

  The text is written for any float instance: nothing of the products' arithmetic is used.
-/
import proofs.«155546_j13280038880162_1_alg».proof.Proof.Gen.KernelIdeal.Frame
import proofs.«155546_j13280038880162_1_alg».proof.Proof.Gen.KernelIdeal.Skeleton
import proofs.«155546_j13280038880162_1_alg».proof.Proof.LibScaleTile
import Idealize.ShloMosaic.Lib.Pipeline.FrameBody
import Idealize.ShloMosaic.Lib.Tactic

set_option maxRecDepth 16384

noncomputable section

namespace Cert.KernelIdeal.Edge

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body on whole staging buffers -/

/-- The whole-buffer rectangles the body loads and stores through: the tile's, the column's and the row's. -/
abbrev rT : Rect S1024x1024 := Rect.unit (s := S1024x1024) ![0, 0] S1024x1024.size inb_S1024x1024_S1024x1024_0_0
abbrev rC : Rect S1024x1 := Rect.unit (s := S1024x1) ![0, 0] S1024x1.size inb_S1024x1_S1024x1_0_0
abbrev rR : Rect S1x1024 := Rect.unit (s := S1x1024) ![0, 0] S1x1024.size inb_S1x1024_S1x1024_0_0

theorem zeros2 : (![0, 0] : Fin 2 → Nat) = fun _ => 0 := funext fun a => by fin_cases a <;> rfl

/-- What the body's one store leaves in the result's staging buffer, from the contents `a` of the matrix tile's
    buffer, `ci` of the column's and `rj` of the row's. -/
def tileOut (a : Vec F S1024x1024 .f32) (ci : Vec F S1024x1 .f32) (rj : Vec F S1x1024 .f32) : Vec F S1024x1024 .f32 :=
  View.canon [⟨rT, k0_pay1 (View.ld ci rC) (View.ld a rT) (View.ld rj rR)⟩]

/-- Entry (p, q) of it: the column's entry p times the tile's entry (p, q), times the row's entry q — so it depends on
    the three buffers only through those three entries. -/
theorem tileOut_apply (a : Vec F S1024x1024 .f32) (ci : Vec F S1024x1 .f32) (rj : Vec F S1x1024 .f32) (p q : Fin 1024) :
    tileOut a ci rj (ix2 p q)
      = FloatOps.mulf (FloatOps.mulf (ci (ix2 p (0 : Fin 1))) (a (ix2 p q))) (rj (ix2 (0 : Fin 1) q)) := by
  unfold tileOut
  rw [View.canon_unit_zero zeros2]
  simp only [View.ld_unit_zero (S := S1024x1024) zeros2, View.ld_unit_zero (S := S1024x1) zeros2,
    View.ld_unit_zero (S := S1x1024) zeros2]
  unfold k0_pay1
  exact Cert.ScaleTile.scaled_apply ci a rj _ _ _ _ p q

set_option maxHeartbeats 1000000 in
/-- The body on whole staging memrefs: the three inputs' buffers at contents `x0`, `x1`, `x2` and the result's at
    anything; it loads the four (the load of the result's buffer is dead), stores the scaled tile into the result's, and
    leaves the inputs' as they were. -/
theorem sound_kernel (c : Dev nD) (E : Set ℕ) (i : grid0.Coords)
    (arg2 : Memref sig .tc .vmem S1024x1024 .f32) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1024x1024 .f32) (harg5 : arg5.IsWhole)
    (x0 : Vec F S1024x1024 .f32) (x1 : Vec F S1024x1 .f32) (x2 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (tileOut x0 x1 x2)) -∗ K ⟨⟩))
      ⊢ wp frame (wpE (defs₀ (F := F)) Variants.none c none) E (cc0__scale_kernel i arg2 harg2 arg3 harg3 arg4 harg4 arg5 harg5) K := by
  simp only [cc0__scale_kernel_eq_skeleton]; unfold cc0__scale_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (fun y => ⟨_, List.mem_singleton_self _, View.mem_set_unit_zero zeros2 inb_S1024x1024_S1024x1024_0_0 y⟩)

/-! ## The proof data

The grid is 10 × 10 over a 10000 × 10000 array in 1024 × 1024 tiles, so the last tile along each axis holds only 784
rows (columns) of the array; the transfers move that part of a tile and nothing names the rest of a staging buffer.
Each window's obligation is therefore stated on the moved part only. -/

/-- Window `w`'s block at point `t` filled out to the whole staging buffer by an arbitrary word past the array's end. -/
def pad (c : Dev nD) (w : Fin cfg0.W) (t : Fin cfg0.N) : (cfg0.win w).block.Idx → Elt F (cfg0.win w).elt :=
  (cfg0.win w).fill (cfg0.grid.coords t) (fun _ => Classical.arbitrary _) (iblk m c w t)

theorem cut_pad (c : Dev nD) (w : Fin cfg0.W) (t : Fin cfg0.N) :
    (cfg0.win w).cut (cfg0.grid.coords t) (pad m c w t) = iblk m c w t := (cfg0.win w).cut_fill _ _ _

/-- The proof data of the one pipeline on core `c`: the arrays as the region finds them; after the body each input's
    staging buffer at its padded block and the result's at the scaled tile of the three padded blocks; the invariant
    the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => pad m c 0 t
    | ⟨1, _⟩ => pad m c 1 t
    | ⟨2, _⟩ => pad m c 2 t
    | ⟨3, _⟩ => tileOut (pad m c 0 t) (pad m c 1 t) (pad m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = pad m c 0 t := by dsimp only [dats]
theorem after_1 (c : Dev nD) (t : Fin cfg0.N) : (dats m 0 c).after 1 t = pad m c 1 t := by dsimp only [dats]
theorem after_2 (c : Dev nD) (t : Fin cfg0.N) : (dats m 0 c).after 2 t = pad m c 2 t := by dsimp only [dats]
theorem after_3 (c : Dev nD) (t : Fin cfg0.N) :
    (dats m 0 c).after 3 t = tileOut (pad m c 0 t) (pad m c 1 t) (pad m c 2 t) := by dsimp only [dats]

/-- Where a tile is cut depends on the point only through the tile's index. -/
theorem clip_of_index0 (t t' : Fin cfg0.N) (h : (cfg0.win 0).index t = (cfg0.win 0).index t') :
    (cfg0.win 0).clip (cfg0.grid.coords t) = (cfg0.win 0).clip (cfg0.grid.coords t') := by
  funext a
  show Pipeline.Clip.of ((cfg0.win 0).index t a) _ _ = Pipeline.Clip.of ((cfg0.win 0).index t' a) _ _
  rw [h]
theorem clip_of_index1 (t t' : Fin cfg0.N) (h : (cfg0.win 1).index t = (cfg0.win 1).index t') :
    (cfg0.win 1).clip (cfg0.grid.coords t) = (cfg0.win 1).clip (cfg0.grid.coords t') := by
  funext a
  show Pipeline.Clip.of ((cfg0.win 1).index t a) _ _ = Pipeline.Clip.of ((cfg0.win 1).index t' a) _ _
  rw [h]
theorem clip_of_index2 (t t' : Fin cfg0.N) (h : (cfg0.win 2).index t = (cfg0.win 2).index t') :
    (cfg0.win 2).clip (cfg0.grid.coords t) = (cfg0.win 2).clip (cfg0.grid.coords t') := by
  funext a
  show Pipeline.Clip.of ((cfg0.win 2).index t a) _ _ = Pipeline.Clip.of ((cfg0.win 2).index t' a) _ _
  rw [h]

/-- An input's staging buffer, fetched at this point or left from an earlier one with the same tile index, holds its
    block on the part the fetch fills and anything elsewhere. -/
theorem before_in (c : Dev nD) (w : Fin cfg0.W) (hw : (cfg0.win w).isOut = false)
    (hclip : ∀ t t' : Fin cfg0.N, (cfg0.win w).index t = (cfg0.win w).index t' →
      (cfg0.win w).clip (cfg0.grid.coords t) = (cfg0.win w).clip (cfg0.grid.coords t'))
    (hafter : ∀ t, (dats m 0 c).after w t = pad m c w t) (t : Fin cfg0.N) (d) :
    (dats m 0 c).before w t d = (cfg0.win w).fill (cfg0.grid.coords t) d (iblk m c w t) :=
  ((dats m 0 c).before_in_eq_fetched w hw (fun _ => rfl) hclip
    (fun t => by rw [hafter, cut_pad]; unfold Dat.blockOf iblk; rw [A_eq]) t d).trans
    (by unfold Dat.fetched Dat.blockOf iblk; rw [A_eq])

theorem before_0 (c : Dev nD) (t : Fin cfg0.N) (d) :
    (dats m 0 c).before 0 t d = (cfg0.win 0).fill (cfg0.grid.coords t) d (iblk m c 0 t) :=
  before_in m c 0 rfl clip_of_index0 (after_0 m c) t d
theorem before_1 (c : Dev nD) (t : Fin cfg0.N) (d) :
    (dats m 0 c).before 1 t d = (cfg0.win 1).fill (cfg0.grid.coords t) d (iblk m c 1 t) :=
  before_in m c 1 rfl clip_of_index1 (after_1 m c) t d
theorem before_2 (c : Dev nD) (t : Fin cfg0.N) (d) :
    (dats m 0 c).before 2 t d = (cfg0.win 2).fill (cfg0.grid.coords t) d (iblk m c 2 t) :=
  before_in m c 2 rfl clip_of_index2 (after_2 m c) t d

/-- The result's staging buffer is written back at every point, so the body finds it at contents nothing names. -/
theorem before_3 (c : Dev nD) (t : Fin cfg0.N) (d) : (dats m 0 c).before 3 t d = d :=
  (dats m 0 c).before_out_reset 3 rfl t (by
    by_cases h : t.val = 0
    · exact .inl h
    · exact .inr ⟨h, flush0_3 _⟩) d

/-! ## The scaled tile on the part the write-back moves

The result's tile is cut where the matrix tile is (the two windows have one index map and one tile shape); the column
is cut where the tile's rows are and the row where its columns are. So an entry of the result's tile that the write-back
moves reads entries of the three input buffers that their fetches moved. -/

/-- Under an index of the moved part of the result's tile: the matrix tile's index, -/
def tileIdx (i : grid0.Coords) (y : ((cfg0.win 3).xblock i).Idx) : ((cfg0.win 0).xblock i).Idx :=
  fun ax => ⟨(y ax).val, (y ax).isLt⟩
/-- the column's (its row, lane 0), -/
def colIdx (i : grid0.Coords) (y : ((cfg0.win 3).xblock i).Idx) : ((cfg0.win 1).xblock i).Idx := fun ax => match ax with
  | ⟨0, _⟩ => ⟨(y 0).val, (y 0).isLt⟩
  | ⟨1, _⟩ => ⟨0, Nat.one_pos⟩
/-- and the row's (sublane 0, its column). -/
def rowIdx (i : grid0.Coords) (y : ((cfg0.win 3).xblock i).Idx) : ((cfg0.win 2).xblock i).Idx := fun ax => match ax with
  | ⟨0, _⟩ => ⟨0, Nat.one_pos⟩
  | ⟨1, _⟩ => ⟨(y 1).val, (y 1).isLt⟩

theorem row_lt (i : grid0.Coords) (y : ((cfg0.win 3).xblock i).Idx) : (y 0).val < 1024 :=
  Nat.lt_of_lt_of_le (y 0).isLt ((cfg0.win 3).xsize_le i 0)
theorem col_lt (i : grid0.Coords) (y : ((cfg0.win 3).xblock i).Idx) : (y 1).val < 1024 :=
  Nat.lt_of_lt_of_le (y 1).isLt ((cfg0.win 3).xsize_le i 1)

theorem xinj3_eq (i : grid0.Coords) (y : ((cfg0.win 3).xblock i).Idx) :
    (cfg0.win 3).xinj i y = ix2 (⟨(y 0).val, row_lt i y⟩ : Fin 1024) (⟨(y 1).val, col_lt i y⟩ : Fin 1024) := by
  funext ax; match ax with | ⟨0, _⟩ => rfl | ⟨1, _⟩ => rfl
theorem xinj0_tileIdx (i : grid0.Coords) (y : ((cfg0.win 3).xblock i).Idx) :
    (cfg0.win 0).xinj i (tileIdx i y) = ix2 (⟨(y 0).val, row_lt i y⟩ : Fin 1024) (⟨(y 1).val, col_lt i y⟩ : Fin 1024) := by
  funext ax; match ax with | ⟨0, _⟩ => rfl | ⟨1, _⟩ => rfl
theorem xinj1_colIdx (i : grid0.Coords) (y : ((cfg0.win 3).xblock i).Idx) :
    (cfg0.win 1).xinj i (colIdx i y) = ix2 (⟨(y 0).val, row_lt i y⟩ : Fin 1024) (0 : Fin 1) := by
  funext ax; match ax with | ⟨0, _⟩ => rfl | ⟨1, _⟩ => rfl
theorem xinj2_rowIdx (i : grid0.Coords) (y : ((cfg0.win 3).xblock i).Idx) :
    (cfg0.win 2).xinj i (rowIdx i y) = ix2 (0 : Fin 1) (⟨(y 1).val, col_lt i y⟩ : Fin 1024) := by
  funext ax; match ax with | ⟨0, _⟩ => rfl | ⟨1, _⟩ => rfl

/-- The scaled tile at a moved entry, from the moved parts of the three inputs' buffers. -/
theorem cut_tileOut_apply (i : grid0.Coords) (a : Vec F S1024x1024 .f32) (ci : Vec F S1024x1 .f32) (rj : Vec F S1x1024 .f32)
    (y : ((cfg0.win 3).xblock i).Idx) :
    (cfg0.win 3).cut i (tileOut a ci rj) y
      = FloatOps.mulf (FloatOps.mulf ((cfg0.win 1).cut i ci (colIdx i y)) ((cfg0.win 0).cut i a (tileIdx i y)))
          ((cfg0.win 2).cut i rj (rowIdx i y)) := by
  show tileOut a ci rj ((cfg0.win 3).xinj i y)
    = FloatOps.mulf (FloatOps.mulf (ci ((cfg0.win 1).xinj i (colIdx i y))) (a ((cfg0.win 0).xinj i (tileIdx i y))))
        (rj ((cfg0.win 2).xinj i (rowIdx i y)))
  rw [xinj3_eq, xinj0_tileIdx, xinj1_colIdx, xinj2_rowIdx, tileOut_apply]

/-- Input buffers that agree on what their fetches moved give result tiles that agree on what the write-back moves. -/
theorem cut_tileOut_congr (i : grid0.Coords) {a a' : Vec F S1024x1024 .f32} {ci ci' : Vec F S1024x1 .f32} {rj rj' : Vec F S1x1024 .f32}
    (h0 : (cfg0.win 0).cut i a = (cfg0.win 0).cut i a') (h1 : (cfg0.win 1).cut i ci = (cfg0.win 1).cut i ci')
    (h2 : (cfg0.win 2).cut i rj = (cfg0.win 2).cut i rj') :
    (cfg0.win 3).cut i (tileOut a ci rj) = (cfg0.win 3).cut i (tileOut a' ci' rj') := by
  funext y
  rw [cut_tileOut_apply, cut_tileOut_apply, h0, h1, h2]

/-! ## The body obligation -/

/-- What the body is called with at point `t`: the invariant, what the core owes, and the four current staging buffers
    at what they then hold, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it hands back: each buffer at what the proof data names on the part the window's transfers move, and at
    anything elsewhere. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        ((cfg0.win 0).fill (cfg0.grid.coords t) d ((cfg0.win 0).cut (cfg0.grid.coords t) ((dats m 0 c).after 0 t))))
    ∗ (∃ d, owns (c : Thread nD τ) (st0_1 t) fullShare
        ((cfg0.win 1).fill (cfg0.grid.coords t) d ((cfg0.win 1).cut (cfg0.grid.coords t) ((dats m 0 c).after 1 t))))
    ∗ (∃ d, owns (c : Thread nD τ) (st0_2 t) fullShare
        ((cfg0.win 2).fill (cfg0.grid.coords t) d ((cfg0.win 2).cut (cfg0.grid.coords t) ((dats m 0 c).after 2 t))))
    ∗ (∃ d, owns (c : Thread nD τ) (st0_3 t) fullShare
        ((cfg0.win 3).fill (cfg0.grid.coords t) d ((cfg0.win 3).cut (cfg0.grid.coords t) ((dats m 0 c).after 3 t)))))

/-- An input's buffer left as found is, on the moved part, the padded block. -/
theorem leaves_in (c : Dev nD) (w : Fin cfg0.W) (t : Fin cfg0.N) (d : (cfg0.win w).block.Idx → Elt F (cfg0.win w).elt) :
    (cfg0.win w).fill (cfg0.grid.coords t) d ((cfg0.win w).cut (cfg0.grid.coords t) (pad m c w t))
      = (cfg0.win w).fill (cfg0.grid.coords t) d (iblk m c w t) :=
  congrArg ((cfg0.win w).fill (cfg0.grid.coords t) d) (cut_pad m c w t)

/-- The scaled tile of buffers holding the blocks and anything elsewhere is, on the part the write-back moves, the scaled
    tile of the padded blocks. -/
theorem leaves_out (c : Dev nD) (t : Fin cfg0.N) (d0 : Vec F S1024x1024 .f32) (d1 : Vec F S1024x1 .f32) (d2 : Vec F S1x1024 .f32) :
    (cfg0.win 3).fill (cfg0.grid.coords t)
        (tileOut ((cfg0.win 0).fill (cfg0.grid.coords t) d0 (iblk m c 0 t)) ((cfg0.win 1).fill (cfg0.grid.coords t) d1 (iblk m c 1 t))
          ((cfg0.win 2).fill (cfg0.grid.coords t) d2 (iblk m c 2 t)))
        ((cfg0.win 3).cut (cfg0.grid.coords t) (tileOut (pad m c 0 t) (pad m c 1 t) (pad m c 2 t)))
      = tileOut ((cfg0.win 0).fill (cfg0.grid.coords t) d0 (iblk m c 0 t)) ((cfg0.win 1).fill (cfg0.grid.coords t) d1 (iblk m c 1 t))
          ((cfg0.win 2).fill (cfg0.grid.coords t) d2 (iblk m c 2 t)) :=
  (cfg0.win 3).fill_congr_cut (cfg0.grid.coords t) (cut_tileOut_congr (cfg0.grid.coords t)
    (((cfg0.win 0).cut_fill _ _ _).trans (cut_pad m c 0 t).symm) (((cfg0.win 1).cut_fill _ _ _).trans (cut_pad m c 1 t).symm)
    (((cfg0.win 2).cut_fill _ _ _).trans (cut_pad m c 2 t).symm))

/-- The body at any point. The inputs' buffers hold their blocks where the fetches filled them and anything `d0`, `d1`,
    `d2` elsewhere; the body leaves them so, which on the moved parts is what the proof data names; and the scaled tile
    it stores agrees, on the part the write-back moves, with the scaled tile of the padded blocks, because a moved
    entry reads only moved entries of the inputs. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ (grid0.coords t) _ _ _ _ _ _ _ _
    ((cfg0.win 0).fill (cfg0.grid.coords t) d0 (iblk m c 0 t)) ((cfg0.win 1).fill (cfg0.grid.coords t) d1 (iblk m c 1 t))
    ((cfg0.win 2).fill (cfg0.grid.coords t) d2 (iblk m c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexists d0; rw [leaves_in m c 0 t d0]; iexact H0
  isplitl [H1]; · iexists d1; rw [leaves_in m c 1 t d1]; iexact H1
  isplitl [H2]; · iexists d2; rw [leaves_in m c 2 t d2]; iexact H2
  iexists tileOut ((cfg0.win 0).fill (cfg0.grid.coords t) d0 (iblk m c 0 t)) ((cfg0.win 1).fill (cfg0.grid.coords t) d1 (iblk m c 1 t))
    ((cfg0.win 2).fill (cfg0.grid.coords t) d2 (iblk m c 2 t))
  rw [leaves_out m c t d0 d1 d2]
  iexact H3

/-- The library's body obligation in its loose form (every window is one whose tiles a transfer may cut), at every point. -/
theorem body_obligation (c : Dev nD) : BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main
    terminates, every array of the pipeline ends at what the write-backs of the proof data's tiles leave and every
    other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame: the run ends, nothing faults, and the two argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Edge

end
-- ==== Proof.Spec.lean ====
/-
  The symmetric diagonal rescaling of a square matrix, entry by entry.

  For a 10000 × 10000 matrix `A` and a vector `al` of 10000 weights the result has, at (i, j), the value
  (al[i] * A[i,j]) * al[j]: the row weight applied first, the column weight second. Both programs compute the two
  products in this order, so the statement needs no law of the arithmetic and is made at every float instance.
-/
import Idealize.ShloMosaic.Lib.ValueIdx

noncomputable section

namespace Cert.Rescale

open Idealize.ShloMosaic Idealize.ShloMosaic.ValueIdx

variable {F : FTy → Type} [FloatOps F]

/-- Row `i` of the matrix index, as an index of the weights. -/
abbrev rowOf (i : (⟨2, ![10000, 10000]⟩ : Shape).Idx) : Fin 10000 := ⟨(i 0).val, (i 0).isLt⟩
/-- Column `j` of the matrix index, as an index of the weights. -/
abbrev colOf (i : (⟨2, ![10000, 10000]⟩ : Shape).Idx) : Fin 10000 := ⟨(i 1).val, (i 1).isLt⟩

/-- The rescaled matrix: entry (i, j) is (al[i] * A[i,j]) * al[j]. -/
def rescale (A : FVec F ⟨2, ![10000, 10000]⟩ .f32) (al : FVec F ⟨1, ![10000]⟩ .f32) : FVec F ⟨2, ![10000, 10000]⟩ .f32 :=
  fun i => FloatOps.mulf (FloatOps.mulf (al (ix1 (rowOf i))) (A i)) (al (ix1 (colOf i)))

end Cert.Rescale

end
-- ==== Proof.KernelIdealValue.lean ====
/-
  The result array of the tiled rescaling kernel, read off its frame run: the rescaled matrix of Spec.lean.

  At point (tr, tc) the write-back moves the part of the result's tile that lies inside the array. Its entry (p, q), array
  entry (1024 tr + p, 1024 tc + q), is (column[p] * tile[p, q]) * row[q] of the three staged blocks, which are the weights
  at row 1024 tr + p, the matrix at that entry and the weights at column 1024 tc + q: the column [10000, 1] and the row
  [1, 10000] are reshapes of the one weight vector. So every point writes back its tile of ONE function of the
  arguments, and the hundred cut tiles — rows 0‥1023, …, 8192‥9215, 9216‥9999, the same along the columns — cover the
  array: the entry (i, j) lies in the tile of the point (i / 1024, j / 1024). Written at any float instance.
-/
import proofs.«155546_j13280038880162_1_alg».proof.Proof.KernelIdealBody
import proofs.«155546_j13280038880162_1_alg».proof.Proof.Spec
import Idealize.ShloMosaic.Lib.Pipeline.Value
import Idealize.ShloMosaic.Lib.ValueLayout
import Idealize.ShloMosaic.Lib.StableHlo.Run

set_option maxRecDepth 16384

noncomputable section

namespace Cert.KernelIdeal.Edge

open Cert.KernelIdeal Cert.KernelIdeal.Gen Cert.Rescale
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-! ## The two reshaped copies of the weights, as the region finds them -/

/-- The column [10000, 1] holds the weights down its one lane, -/
theorem V_col (c : Dev nD) : (V m c main_v0 : S10000x1.Idx → Elt F .f32)
    = shapeCast S10000x1 (m ((c : Thread nD τ).loc main_arg1)) shapeCasts_S10000_S10000x1 := by
  dsimp only [V, hostOps0]; after_results; rfl
/-- and the row [1, 10000] along its one sublane. -/
theorem V_row (c : Dev nD) : (V m c main_v1 : S1x10000.Idx → Elt F .f32)
    = shapeCast S1x10000 (m ((c : Thread nD τ).loc main_arg1)) shapeCasts_S10000_S1x10000 := by
  dsimp only [V, hostOps0]; after_results; rfl

theorem V_col_apply (c : Dev nD) (r : Fin 10000) :
    (V m c main_v0 : S10000x1.Idx → Elt F .f32) (ix2 r (0 : Fin 1)) = m ((c : Thread nD τ).loc main_arg1) (ix1 r) := by
  rw [V_col]
  exact Cert.ScaleTile.shapeCast_a_a1_apply _ _ r (0 : Fin 1)
theorem V_row_apply (c : Dev nD) (r : Fin 10000) :
    (V m c main_v1 : S1x10000.Idx → Elt F .f32) (ix2 (0 : Fin 1) r) = m ((c : Thread nD τ).loc main_arg1) (ix1 r) := by
  rw [V_row]
  exact shapeCast_a_1a_apply _ _ (0 : Fin 1) r

/-! ## What a point writes back

At point `t` the matrix tile and the result's tile have one tile index (tr, tc); the column's tile index is (tr, 0) and
the row's (0, tc). So under the result tile's entry (p, q), array entry (1024 tr + p, 1024 tc + q), the body read the
matrix there, the column at row 1024 tr + p and the row at column 1024 tc + q. -/

/-- The tile indices at a point, decided over the grid. -/
theorem tile_indices : ∀ t : Fin cfg0.N, win0_0.index t (0 : Fin 2) = win0_3.index t (0 : Fin 2)
    ∧ win0_0.index t (1 : Fin 2) = win0_3.index t (1 : Fin 2)
    ∧ win0_1.index t (0 : Fin 2) = win0_3.index t (0 : Fin 2) ∧ win0_1.index t (1 : Fin 2) = 0
    ∧ win0_2.index t (0 : Fin 2) = 0 ∧ win0_2.index t (1 : Fin 2) = win0_3.index t (1 : Fin 2) :=
  (by decide +kernel : ∀ t : Fin grid0.N, _)

/-- What point `t` writes back is its (cut) tile of the rescaled matrix. -/
theorem flushed_eq (c : Dev nD) (t : Fin cfg0.N) :
    (dats m 0 c).flushed 3 t = ((cfg0.win 3).blk t).view.read (Elt F)
      (rescale (m ((c : Thread nD τ).loc main_arg0)) (m ((c : Thread nD τ).loc main_arg1))) := by
  funext y
  show (cfg0.win 3).cut (cfg0.grid.coords t) ((dats m 0 c).after 3 t) y = _
  rw [after_3, cut_tileOut_apply, cut_pad, cut_pad, cut_pad]
  obtain ⟨e00, e01, e10, e11, e20, e21⟩ := tile_indices t
  show FloatOps.mulf (FloatOps.mulf (V m c main_v0 (((cfg0.win 1).blk t).view.emb (colIdx (cfg0.grid.coords t) y)))
        (V m c main_arg0 (((cfg0.win 0).blk t).view.emb (tileIdx (cfg0.grid.coords t) y))))
      (V m c main_v1 (((cfg0.win 2).blk t).view.emb (rowIdx (cfg0.grid.coords t) y)))
    = rescale (m ((c : Thread nD τ).loc main_arg0)) (m ((c : Thread nD τ).loc main_arg1)) (((cfg0.win 3).blk t).view.emb y)
  have h0 : ((cfg0.win 0).blk t).view.emb (tileIdx (cfg0.grid.coords t) y) = ((cfg0.win 3).blk t).view.emb y := by
    funext a; apply Fin.ext
    match a with
    | ⟨0, _⟩ => show win0_0.index t (0 : Fin 2) * 1024 + 1 * (y 0).val = win0_3.index t (0 : Fin 2) * 1024 + 1 * (y 0).val; omega
    | ⟨1, _⟩ => show win0_0.index t (1 : Fin 2) * 1024 + 1 * (y 1).val = win0_3.index t (1 : Fin 2) * 1024 + 1 * (y 1).val; omega
  have h1 : ((cfg0.win 1).blk t).view.emb (colIdx (cfg0.grid.coords t) y)
      = ix2 (rowOf (((cfg0.win 3).blk t).view.emb y)) (0 : Fin 1) := by
    funext a; apply Fin.ext
    match a with
    | ⟨0, _⟩ => show win0_1.index t (0 : Fin 2) * 1024 + 1 * (y 0).val = win0_3.index t (0 : Fin 2) * 1024 + 1 * (y 0).val; omega
    | ⟨1, _⟩ => show win0_1.index t (1 : Fin 2) * 1 + 1 * 0 = 0; omega
  have h2 : ((cfg0.win 2).blk t).view.emb (rowIdx (cfg0.grid.coords t) y)
      = ix2 (0 : Fin 1) (colOf (((cfg0.win 3).blk t).view.emb y)) := by
    funext a; apply Fin.ext
    match a with
    | ⟨0, _⟩ => show win0_2.index t (0 : Fin 2) * 1 + 1 * 0 = 0; omega
    | ⟨1, _⟩ => show win0_2.index t (1 : Fin 2) * 1024 + 1 * (y 1).val = win0_3.index t (1 : Fin 2) * 1024 + 1 * (y 1).val; omega
  rw [h0, h1, h2, V_col_apply, V_row_apply, V_main_arg0]
  rfl

/-! ## The tiles cover the array

The tile rows are 0‥1023, …, 8192‥9215 and the cut 9216‥9999; the same along the columns. -/

/-- The result window's tile index and the sizes of what its write-back moves, decided over the grid. -/
theorem grid_facts : ∀ t : Fin cfg0.N, win0_3.index t (0 : Fin 2) = t.val / 10 ∧ win0_3.index t (1 : Fin 2) = t.val % 10
    ∧ win0_3.xsize (grid0.coords t) (0 : Fin 2) = (if t.val / 10 < 9 then 1024 else 784)
    ∧ win0_3.xsize (grid0.coords t) (1 : Fin 2) = (if t.val % 10 < 9 then 1024 else 784) :=
  (by decide +kernel : ∀ t : Fin grid0.N, _)

/-- An entry of the array is in point `t`'s cut tile iff each coordinate is in the tile's range inside the array. -/
theorem mem_blk (t : Fin cfg0.N) (i : S10000x10000.Idx) :
    i ∈ ((cfg0.win 3).blk t).view.set ↔ ∀ a : Fin 2, win0_3.index t a * S1024x1024.size a ≤ (i a).val
      ∧ (i a).val < win0_3.index t a * S1024x1024.size a + win0_3.xsize (grid0.coords t) a := by
  show i ∈ ((View.whole main_v2).slice (win0_3.rect t)).set ↔ _
  rw [View.set_slice_whole, Rect.mem_set_unit]
  exact Iff.rfl

/-- Every entry lies in the tile of the point (row / 1024, column / 1024). -/
theorem covered (i : S10000x10000.Idx) :
    ∃ t : Fin cfg0.N, (cfg0.win 3).flush t = true ∧ i ∈ ((cfg0.win 3).blk t).view.set := by
  have hi0 : (i 0).val < 10000 := (i 0).isLt
  have hi1 : (i 1).val < 10000 := (i 1).isLt
  obtain ⟨t, ht⟩ : ∃ t : Fin cfg0.N, t.val = (i 0).val / 1024 * 10 + (i 1).val / 1024 :=
    ⟨⟨(i 0).val / 1024 * 10 + (i 1).val / 1024, by have := N_0; show _ < grid0.N; omega⟩, rfl⟩
  obtain ⟨g0, g1, g2, g3⟩ := grid_facts t
  refine ⟨t, flush0_3 t, ?_⟩
  rw [mem_blk]
  intro a
  match a with
  | ⟨0, _⟩ =>
    show win0_3.index t (0 : Fin 2) * 1024 ≤ (i 0).val
      ∧ (i 0).val < win0_3.index t (0 : Fin 2) * 1024 + win0_3.xsize (grid0.coords t) (0 : Fin 2)
    rw [g0, g2]; split <;> omega
  | ⟨1, _⟩ =>
    show win0_3.index t (1 : Fin 2) * 1024 ≤ (i 1).val
      ∧ (i 1).val < win0_3.index t (1 : Fin 2) * 1024 + win0_3.xsize (grid0.coords t) (1 : Fin 2)
    rw [g1, g3]; split <;> omega

/-- The result array after the run is the rescaled matrix. -/
theorem final (c : Dev nD) : (dats m 0 c).arrAt 3 cfg0.N
    = rescale (m ((c : Thread nD τ).loc main_arg0)) (m ((c : Thread nD τ).loc main_arg1)) :=
  (dats m 0 c).arrAt_eq_of_cover 3 _ (fun t _ => flushed_eq m c t) covered

/-! ## The run, read -/

/-- The frame run re-posted: the result array at the rescaled matrix, the two arguments unchanged. -/
theorem run : θ_run defs (onTc (τ := τ) (main (F := F))) ⟨m, fun _ => 0, ρ⟩ fun r => ∀ c : Dev nD,
      r.2.mem ((c.tc : Thread nD τ).loc main_v2)
        = rescale (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1 3).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩)
    (run_main m ρ)

end Cert.KernelIdeal.Edge

end
-- ==== Proof.RefSide.lean ====
/-
  The reference computes the rescaled matrix of Spec.lean.

  Its six operations are two broadcasts of the weights to a column [10000, 1] and on to the full matrix shape, the
  product with the matrix, two broadcasts to a row [1, 10000] and on to the full shape, and the second product. Read at an
  entry (i, j) the first chain is al[i] and the second al[j], so the result there is (al[i] * A[i,j]) * al[j].
-/
import proofs.«155546_j13280038880162_1_alg».proof.Proof.Gen.ReferenceIdeal.Read
import proofs.«155546_j13280038880162_1_alg».proof.Proof.Spec

noncomputable section

namespace Cert.ReferenceIdeal.RefValue

open Cert.ReferenceIdeal Cert.ReferenceIdeal.Read Idealize.ShloMosaic Idealize.ShloMosaic.ValueIdx Cert.Rescale

variable {F : FTy → Type} [FloatOps F]

/-- The two broadcast chains' index maps: an entry's row, and its column. -/
theorem row_chain (i : S10000x10000.Idx) : idx_main_v0 (idx_main_v1 i) = ix1 (rowOf i) :=
  funext fun a => by match a with | ⟨0, _⟩ => rfl
theorem col_chain (i : S10000x10000.Idx) : idx_main_v3 (idx_main_v4 i) = ix1 (colOf i) :=
  funext fun a => by match a with | ⟨0, _⟩ => rfl

/-- The reference's result is the rescaled matrix. -/
theorem result_eq (x0 : (⟨S10000x10000, .f32⟩ : BufTy).Contents (Elt F)) (x1 : (⟨S10000, .f32⟩ : BufTy).Contents (Elt F)) :
    val_main_v5 (F := F) x0 x1 = rescale x0 x1 := by
  funext i
  rw [val_main_v5_apply, val_main_v2_apply, val_main_v1_apply, val_main_v0_apply, val_main_v4_apply, val_main_v3_apply,
    row_chain, col_chain]
  rfl

end Cert.ReferenceIdeal.RefValue

end
-- ==== Proof.lean ====
/-
  The symmetric diagonal rescaling  out[i, j] = (al[i] * A[i, j]) * al[j]  of a 10000 × 10000 matrix: a tiled kernel
  against the plain broadcast-and-multiply reference, over the extended reals.

  The kernel walks a 10 × 10 grid of 1024 × 1024 tiles; the last tile along each axis is cut at the array's end
  (10000 = 9 · 1024 + 784). Its frame — at the word level and idealized — is Proof/KernelBody.lean and
  Proof/KernelIdealBody.lean (one text): each staging buffer is described only where its transfers move it, and a moved
  entry of the result's tile reads only moved entries of the inputs. Proof/KernelIdealValue.lean reads the result array
  off that run: the cut tiles cover the array and each is the tile of ONE function of the arguments, the rescaled matrix
  of Proof/Spec.lean. The reference's six host operations compute the same function (Proof/RefSide.lean), with the two
  products in the same order, so no law of the arithmetic and no finiteness of the inputs is needed. The idealization
  rewrote nothing, so `preserves` is the trivial statement.
-/
import proofs.«155546_j13280038880162_1_alg».proof.Defs
import proofs.«155546_j13280038880162_1_alg».proof.Proof.Gen.Kernel
import proofs.«155546_j13280038880162_1_alg».proof.Proof.Gen.KernelIdeal
import proofs.«155546_j13280038880162_1_alg».proof.Proof.Gen.ReferenceIdeal
import proofs.«155546_j13280038880162_1_alg».proof.Proof.Gen.Pre_finite_inputs
import proofs.«155546_j13280038880162_1_alg».proof.Proof.Gen.ReferenceIdeal.Run
import proofs.«155546_j13280038880162_1_alg».proof.Proof.KernelBody
import proofs.«155546_j13280038880162_1_alg».proof.Proof.KernelIdealValue
import proofs.«155546_j13280038880162_1_alg».proof.Proof.RefSide
import Idealize.ShloMosaic.Adequacy
import Idealize.ShloMosaic.Init

noncomputable section

namespace Cert.Proof

open Idealize.ShloMosaic Idealize.ShloMosaic.TcCoe Idealize.SL.Sem

/-- The kernel as printed runs to the end and keeps its arguments. -/
theorem frame_k : Cert.frame_Kernel := fun m ρ _ => Cert.Kernel.Edge.frame m ρ

/-- So does its idealization. -/
theorem frame_ki : Cert.frame_KernelIdeal := fun m ρ _ => Cert.KernelIdeal.Edge.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the rescaled matrix of their (equal) arguments. -/
theorem algebraic : Cert.algebraic_KernelIdeal_ReferenceIdeal := by
  intro m ρ m' ρ' _ hagree
  refine ⟨_, Cert.KernelIdeal.Edge.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
